-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S_ : Shape := ⟨0, ![]⟩

class Facts : Prop where
  reducesTo_S_S_d : S_.ReducesTo [] S_
  h_S_ : 0 < S_.numel
  bcast_S_S262144x32 : S_.BroadcastsInDim S262144x32 (![] : Fin 0 → Fin S262144x32.rank)
  reducesTo_S262144x32_S_d0_1 : S262144x32.ReducesTo [0, 1] S_

variable [Facts]

def fn {F : FTy → Type} [FloatOps F] (main_arg0 : IVec S262144x32 32) (main_arg1 : FVec F S_ .f32) : IVec S_ 1 :=
  let main_v0 : FVec F S_ .f32 := Host.absf main_arg1
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_c_0 : IVec S_ 32 := constantI S_ 32 0#32
  let main_v3 : IVec S262144x32 32 := broadcastInDim S262144x32 ![] bcast_S_S262144x32 main_c_0
  let main_v4 : IVec S262144x32 1 := cmpi .sge main_arg0 main_v3
  let main_c_1 : IVec S_ 32 := constantI S_ 32 256#32
  let main_v5 : IVec S262144x32 32 := broadcastInDim S262144x32 ![] bcast_S_S262144x32 main_c_1
  let main_v6 : IVec S262144x32 1 := cmpi .slt main_arg0 main_v5
  let main_v7 : IVec S262144x32 1 := andi main_v4 main_v6
  let main_c_2 : IVec S_ 1 := constantI S_ 1 1#1
  let main_v8 : IVec S_ 1 := (fun x v => Host.reduce IntOp.andi x v reducesTo_S262144x32_S_d0_1 h_S_) main_v7 main_c_2
  let main_v9 : IVec S_ 1 := andi main_v2 main_v8
  main_v9
-- ==== Kernel.lean ====
abbrev S262144x32 : Shape := ⟨2, ![262144, 32]⟩
abbrev S_ : Shape := ⟨0, ![]⟩
abbrev S262144x256 : Shape := ⟨2, ![262144, 256]⟩
abbrev S1024x32 : Shape := ⟨2, ![1024, 32]⟩
abbrev S1024x256 : Shape := ⟨2, ![1024, 256]⟩
abbrev S1x256 : Shape := ⟨2, ![1, 256]⟩
abbrev S1024x1 : Shape := ⟨2, ![1024, 1]⟩

abbrev nBuf : Space → Nat
  | .hbm => 27
  | .vmem => 6
  | .smem => 0
  | _ => 0

abbrev bufTy : (tb : Table) → Fin (tcTables nBuf tb) → BufTy
  | .hbm, ⟨0, _⟩ => ⟨S262144x32, .i32⟩
  | .hbm, ⟨1, _⟩ => ⟨S_, .f32⟩
  | .hbm, ⟨2, _⟩ => ⟨S_, .i32⟩
  | .hbm, ⟨3, _⟩ => ⟨S262144x32, .i32⟩
  | .hbm, ⟨4, _⟩ => ⟨S262144x32, .i1⟩
  | .hbm, ⟨5, _⟩ => ⟨S262144x32, .i32⟩
  | .hbm, ⟨6, _⟩ => ⟨S262144x32, .i32⟩
  | .hbm, ⟨7, _⟩ => ⟨S_, .i32⟩
  | .hbm, ⟨8, _⟩ => ⟨S_, .i32⟩
  | .hbm, ⟨9, _⟩ => ⟨S262144x32, .i32⟩
  | .hbm, ⟨10, _⟩ => ⟨S262144x32, .i32⟩
  | .hbm, ⟨11, _⟩ => ⟨S262144x32, .i32⟩
  | .hbm, ⟨12, _⟩ => ⟨S262144x32, .f32⟩
  | .hbm, ⟨13, _⟩ => ⟨S_, .f32⟩
  | .hbm, ⟨14, _⟩ => ⟨S262144x32, .f32⟩
  | .hbm, ⟨15, _⟩ => ⟨S262144x32, .f32⟩
  | .hbm, ⟨16, _⟩ => ⟨S262144x32, .f32⟩
  | .hbm, ⟨17, _⟩ => ⟨S262144x32, .f32⟩
  | .hbm, ⟨18, _⟩ => ⟨S_, .i32⟩
  | .hbm, ⟨19, _⟩ => ⟨S262144x32, .i32⟩
  | .hbm, ⟨20, _⟩ => ⟨S262144x32, .i1⟩
  | .hbm, ⟨21, _⟩ => ⟨S_, .f32⟩
  | .hbm, ⟨22, _⟩ => ⟨S262144x32, .f32⟩
  | .hbm, ⟨23, _⟩ => ⟨S262144x32, .f32⟩
  | .hbm, ⟨24, _⟩ => ⟨S262144x32, .f32⟩
  | .hbm, ⟨25, _⟩ => ⟨S262144x32, .f32⟩
  | .hbm, ⟨26, _⟩ => ⟨S262144x256, .f32⟩
  | .local _ .vmem, ⟨0, _⟩ => ⟨S1024x32, .i32⟩
  | .local _ .vmem, ⟨1, _⟩ => ⟨S1024x32, .i32⟩
  | .local _ .vmem, ⟨2, _⟩ => ⟨S1024x32, .f32⟩
  | .local _ .vmem, ⟨3, _⟩ => ⟨S1024x32, .f32⟩
  | .local _ .vmem, ⟨4, _⟩ => ⟨S1024x256, .f32⟩
  | .local _ .vmem, ⟨5, _⟩ => ⟨S1024x256, .f32⟩
  | _, _ => ⟨S262144x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_call0_c : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S262144x32 : S_.BroadcastsInDim S262144x32 (![] : Fin 0 → Fin S262144x32.rank)
  natLt_1_32 : 1 < 32
  bcast_S_S_ : S_.BroadcastsInDim S_ (![] : Fin 0 → Fin S_.rank)
  reduceWindows_S262144x32_S262144x32_w1s1p0_0_w32s1p31_0 : S262144x32.ReduceWindows (![1, 32] : Fin 2 → Nat) ![1, 1] ![0, 31] ![0, 0] S262144x32
  h_S_ : 0 < S_.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  iota_S1x256_d1_w32 : S1x256.Iotas .tc 32 [1]
  slices_S1024x32_o0_0_S1024x1 : S1024x32.Slices ![0, 0] S1024x1
  broadcasts_S1024x1_S1024x256 : S1024x1.Broadcasts S1024x256
  broadcasts_S1x256_S1024x256 : S1x256.Broadcasts S1024x256
  slices_S1024x32_o0_1_S1024x1 : S1024x32.Slices ![0, 1] S1024x1
  slices_S1024x32_o0_2_S1024x1 : S1024x32.Slices ![0, 2] S1024x1
  slices_S1024x32_o0_3_S1024x1 : S1024x32.Slices ![0, 3] S1024x1
  slices_S1024x32_o0_4_S1024x1 : S1024x32.Slices ![0, 4] S1024x1
  slices_S1024x32_o0_5_S1024x1 : S1024x32.Slices ![0, 5] S1024x1
  slices_S1024x32_o0_6_S1024x1 : S1024x32.Slices ![0, 6] S1024x1
  slices_S1024x32_o0_7_S1024x1 : S1024x32.Slices ![0, 7] S1024x1
  slices_S1024x32_o0_8_S1024x1 : S1024x32.Slices ![0, 8] S1024x1
  slices_S1024x32_o0_9_S1024x1 : S1024x32.Slices ![0, 9] S1024x1
  slices_S1024x32_o0_10_S1024x1 : S1024x32.Slices ![0, 10] S1024x1
  slices_S1024x32_o0_11_S1024x1 : S1024x32.Slices ![0, 11] S1024x1
  slices_S1024x32_o0_12_S1024x1 : S1024x32.Slices ![0, 12] S1024x1
  slices_S1024x32_o0_13_S1024x1 : S1024x32.Slices ![0, 13] S1024x1
  slices_S1024x32_o0_14_S1024x1 : S1024x32.Slices ![0, 14] S1024x1
  slices_S1024x32_o0_15_S1024x1 : S1024x32.Slices ![0, 15] S1024x1
  slices_S1024x32_o0_16_S1024x1 : S1024x32.Slices ![0, 16] S1024x1
  slices_S1024x32_o0_17_S1024x1 : S1024x32.Slices ![0, 17] S1024x1
  slices_S1024x32_o0_18_S1024x1 : S1024x32.Slices ![0, 18] S1024x1
  slices_S1024x32_o0_19_S1024x1 : S1024x32.Slices ![0, 19] S1024x1
  slices_S1024x32_o0_20_S1024x1 : S1024x32.Slices ![0, 20] S1024x1
  slices_S1024x32_o0_21_S1024x1 : S1024x32.Slices ![0, 21] S1024x1
  slices_S1024x32_o0_22_S1024x1 : S1024x32.Slices ![0, 22] S1024x1
  slices_S1024x32_o0_23_S1024x1 : S1024x32.Slices ![0, 23] S1024x1
  slices_S1024x32_o0_24_S1024x1 : S1024x32.Slices ![0, 24] S1024x1
  slices_S1024x32_o0_25_S1024x1 : S1024x32.Slices ![0, 25] S1024x1
  slices_S1024x32_o0_26_S1024x1 : S1024x32.Slices ![0, 26] S1024x1
  slices_S1024x32_o0_27_S1024x1 : S1024x32.Slices ![0, 27] S1024x1
  slices_S1024x32_o0_28_S1024x1 : S1024x32.Slices ![0, 28] S1024x1
  slices_S1024x32_o0_29_S1024x1 : S1024x32.Slices ![0, 29] S1024x1
  slices_S1024x32_o0_30_S1024x1 : S1024x32.Slices ![0, 30] S1024x1
  slices_S1024x32_o0_31_S1024x1 : S1024x32.Slices ![0, 31] S1024x1
  inb_S1024x256_S1024x256_0_0 : ∀ a, (![0, 0] : Fin 2 → Nat) a + S1024x256.size a ≤ S1024x256.size a
  h_S1024x256 : 0 < S1024x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S262144x32.size a
  hwx0_0 : ∀ i : grid0.Coords, EltTy.bits .i32 = 32 ∨ (Rect.block (s := S262144x32) S1024x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S262144x32.size a
  hwx0_1 : ∀ i : grid0.Coords, EltTy.bits .f32 = 32 ∨ (Rect.block (s := S262144x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S262144x256.size a
  hwx0_2 : ∀ i : grid0.Coords, EltTy.bits .f32 = 32 ∨ (Rect.block (s := S262144x256) S1024x256.size (cc0_transform_2 i) (hinb0_2 i)).WholeWords (EltTy.packing .f32)

variable [Facts₀]

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x32 : Shape := ⟨2, ![262144, 32]⟩
abbrev S_ : Shape := ⟨0, ![]⟩
abbrev S262144 : Shape := ⟨1, ![262144]⟩
abbrev S262144x1 : Shape := ⟨2, ![262144, 1]⟩
abbrev S262144x256 : Shape := ⟨2, ![262144, 256]⟩
abbrev S262144x32x1 : Shape := ⟨3, ![262144, 32, 1]⟩
abbrev S262144x32x2 : Shape := ⟨3, ![262144, 32, 2]⟩

abbrev nBuf : Space → Nat
  | .hbm => 49
  | .vmem => 0
  | .smem => 0
  | _ => 0

abbrev bufTy : (tb : Table) → Fin (tcTables nBuf tb) → BufTy
  | .hbm, ⟨0, _⟩ => ⟨S262144x32, .i32⟩
  | .hbm, ⟨1, _⟩ => ⟨S_, .f32⟩
  | .hbm, ⟨2, _⟩ => ⟨S_, .i32⟩
  | .hbm, ⟨3, _⟩ => ⟨S262144x32, .i32⟩
  | .hbm, ⟨4, _⟩ => ⟨S262144x32, .i1⟩
  | .hbm, ⟨5, _⟩ => ⟨S262144x32, .i32⟩
  | .hbm, ⟨6, _⟩ => ⟨S262144x32, .i32⟩
  | .hbm, ⟨7, _⟩ => ⟨S_, .i32⟩
  | .hbm, ⟨8, _⟩ => ⟨S_, .i32⟩
  | .hbm, ⟨9, _⟩ => ⟨S262144x32, .i32⟩
  | .hbm, ⟨10, _⟩ => ⟨S262144x32, .i32⟩
  | .hbm, ⟨11, _⟩ => ⟨S262144x32, .i32⟩
  | .hbm, ⟨12, _⟩ => ⟨S262144x32, .f32⟩
  | .hbm, ⟨13, _⟩ => ⟨S_, .f32⟩
  | .hbm, ⟨14, _⟩ => ⟨S262144x32, .f32⟩
  | .hbm, ⟨15, _⟩ => ⟨S262144x32, .f32⟩
  | .hbm, ⟨16, _⟩ => ⟨S262144x32, .f32⟩
  | .hbm, ⟨17, _⟩ => ⟨S262144x32, .f32⟩
  | .hbm, ⟨18, _⟩ => ⟨S_, .i32⟩
  | .hbm, ⟨19, _⟩ => ⟨S262144x32, .i32⟩
  | .hbm, ⟨20, _⟩ => ⟨S262144x32, .i1⟩
  | .hbm, ⟨21, _⟩ => ⟨S_, .f32⟩
  | .hbm, ⟨22, _⟩ => ⟨S262144x32, .f32⟩
  | .hbm, ⟨23, _⟩ => ⟨S262144x32, .f32⟩
  | .hbm, ⟨24, _⟩ => ⟨S262144x32, .f32⟩
  | .hbm, ⟨25, _⟩ => ⟨S262144x32, .f32⟩
  | .hbm, ⟨26, _⟩ => ⟨S262144, .i32⟩
  | .hbm, ⟨27, _⟩ => ⟨S262144x1, .i32⟩
  | .hbm, ⟨28, _⟩ => ⟨S_, .f32⟩
  | .hbm, ⟨29, _⟩ => ⟨S262144x256, .f32⟩
  | .hbm, ⟨30, _⟩ => ⟨S_, .i32⟩
  | .hbm, ⟨31, _⟩ => ⟨S262144x1, .i32⟩
  | .hbm, ⟨32, _⟩ => ⟨S262144x1, .i1⟩
  | .hbm, ⟨33, _⟩ => ⟨S_, .i32⟩
  | .hbm, ⟨34, _⟩ => ⟨S262144x1, .i32⟩
  | .hbm, ⟨35, _⟩ => ⟨S262144x1, .i32⟩
  | .hbm, ⟨36, _⟩ => ⟨S262144x1, .i32⟩
  | .hbm, ⟨37, _⟩ => ⟨S_, .i32⟩
  | .hbm, ⟨38, _⟩ => ⟨S262144x32, .i32⟩
  | .hbm, ⟨39, _⟩ => ⟨S262144x32, .i1⟩
  | .hbm, ⟨40, _⟩ => ⟨S_, .i32⟩
  | .hbm, ⟨41, _⟩ => ⟨S262144x32, .i32⟩
  | .hbm, ⟨42, _⟩ => ⟨S262144x32, .i32⟩
  | .hbm, ⟨43, _⟩ => ⟨S262144x32, .i32⟩
  | .hbm, ⟨44, _⟩ => ⟨S262144x32, .i32⟩
  | .hbm, ⟨45, _⟩ => ⟨S262144x32x1, .i32⟩
  | .hbm, ⟨46, _⟩ => ⟨S262144x32x1, .i32⟩
  | .hbm, ⟨47, _⟩ => ⟨S262144x32x2, .i32⟩
  | .hbm, ⟨48, _⟩ => ⟨S262144x256, .f32⟩
  | _, _ => ⟨S262144x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_call0_c : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  bcast_S_S262144x32 : S_.BroadcastsInDim S262144x32 (![] : Fin 0 → Fin S262144x32.rank)
  natLt_1_32 : 1 < 32
  bcast_S_S_ : S_.BroadcastsInDim S_ (![] : Fin 0 → Fin S_.rank)
  reduceWindows_S262144x32_S262144x32_w1s1p0_0_w32s1p31_0 : S262144x32.ReduceWindows (![1, 32] : Fin 2 → Nat) ![1, 1] ![0, 31] ![0, 0] S262144x32
  h_S_ : 0 < S_.numel
  bcast_S262144_S262144x1_0 : S262144.BroadcastsInDim S262144x1 (![0] : Fin 1 → Fin S262144x1.rank)
  bcast_S_S262144x256 : S_.BroadcastsInDim S262144x256 (![] : Fin 0 → Fin S262144x256.rank)
  bcast_S_S262144x1 : S_.BroadcastsInDim S262144x1 (![] : Fin 0 → Fin S262144x1.rank)
  bcast_S262144x1_S262144x32_0_1 : S262144x1.BroadcastsInDim S262144x32 (![0, 1] : Fin 2 → Fin S262144x32.rank)
  bcast_S262144x32_S262144x32x1_0_1 : S262144x32.BroadcastsInDim S262144x32x1 (![0, 1] : Fin 2 → Fin S262144x32x1.rank)
  concatenates_S262144x32x1_S262144x32x1_S262144x32x2_d2 : Shape.Concatenates [S262144x32x1, S262144x32x1] S262144x32x2 2
  scatter_S262144x256_S262144x32x2_S262144x32_n_01_01_2_wf : ScatterDims.WF S262144x256 S262144x32x2 S262144x32 [] [0, 1] [0, 1] 2

variable [Facts₀]

def scatter_S262144x256_S262144x32x2_S262144x32_n_01_01_2 : ScatterDims S262144x256 S262144x32x2 S262144x32 where
  updateWindowDims := []
  insertedWindowDims := [0, 1]
  scatterDimsToOperandDims := [0, 1]
  indexVectorDim := 2
  wf := scatter_S262144x256_S262144x32x2_S262144x32_n_01_01_2_wf

class Facts : Prop extends Facts₀ where

variable [Facts]
-- ==== Proof.HostChain.lean ====
/-
  The two host-side arrays both programs build from the character codes `x : i32[262144, 32]` and the
  forgetting factor `f : f32[]`, each written once as a function of the arguments.

  * `decay x f` : the weight of every character. With `present x` the 0/1 word "the character is not 0" and
    `later x` the number of present characters strictly to the right in the same word (a right-to-left running
    count minus the character's own bit), the weight is `(if later = 0 then 1 else f ^ max later 1) · present`.
    Both programs compute it with the same operations in the same order, so the equivalence never opens it.
  * `scatIdx x` : the reference's scatter indices, one (row, column) pair per character: the row is the word's
    number, the column is the character code with a negative code moved up by 256 (python's indexing from the end).
-/
import Idealize.ShloMosaic.PureOps

noncomputable section

namespace Cert.Fofe

open Idealize.ShloMosaic

abbrev Sc : Shape := ⟨0, ![]⟩
abbrev Sw : Shape := ⟨1, ![262144]⟩
abbrev Sw1 : Shape := ⟨2, ![262144, 1]⟩
abbrev Swl : Shape := ⟨2, ![262144, 32]⟩
abbrev Swl1 : Shape := ⟨3, ![262144, 32, 1]⟩
abbrev Swl2 : Shape := ⟨3, ![262144, 32, 2]⟩
abbrev Swv : Shape := ⟨2, ![262144, 256]⟩

theorem bc_c_wl : Sc.BroadcastsInDim Swl (![] : Fin 0 → Fin Swl.rank) := by decide
theorem bc_c_c : Sc.BroadcastsInDim Sc (![] : Fin 0 → Fin Sc.rank) := by decide
theorem bc_c_w1 : Sc.BroadcastsInDim Sw1 (![] : Fin 0 → Fin Sw1.rank) := by decide
theorem bc_w_w1 : Sw.BroadcastsInDim Sw1 (![0] : Fin 1 → Fin Sw1.rank) := by decide
theorem bc_w1_wl : Sw1.BroadcastsInDim Swl (![0, 1] : Fin 2 → Fin Swl.rank) := by decide
theorem bc_wl_wl1 : Swl.BroadcastsInDim Swl1 (![0, 1] : Fin 2 → Fin Swl1.rank) := by decide
theorem cat_wl2 : Shape.Concatenates [Swl1, Swl1] Swl2 2 := by decide
theorem rw_wl : Swl.ReduceWindows (![1, 32] : Fin 2 → Nat) ![1, 1] ![0, 31] ![0, 0] Swl := by decide
theorem one_lt : 1 < 32 := by decide
theorem pos_c : 0 < Sc.numel := by decide

variable {F : FTy → Type} [FloatOps F]

/-- 1 where the character code is not 0, else 0. -/
def present (x : IVec Swl 32) : IVec Swl 32 :=
  extui 32 (cmpi .ne x (broadcastInDim Swl ![] bc_c_wl (constantI Sc 32 0#32))) one_lt

/-- How many present characters stand strictly to the right in the same word. -/
def later (x : IVec Swl 32) : IVec Swl 32 :=
  subi (Host.reverse [1] (Host.reduceWindow IntOp.addi ![1, 32] ![1, 1] ![0, 31] ![0, 0] (Host.reverse [1] (present x))
    (broadcastInDim Sc ![] bc_c_c (constantI Sc 32 0#32)) rw_wl pos_c)) (present x)

/-- The weight of every character: `(if later = 0 then 1 else f ^ max later 1) · present`. -/
def decay (x : IVec Swl 32) (f : FVec F Sc .f32) : FVec F Swl .f32 :=
  mulf
    (select (cmpi .eq (later x) (broadcastInDim Swl ![] bc_c_wl (constantI Sc 32 0#32)))
      (broadcastInDim Swl ![] bc_c_wl (constant Sc .f32 0x3F800000#32))
      (Host.powf (broadcastInDim Swl ![] bc_c_wl f)
        (maximumf (sitofp .f32 (later x)) (broadcastInDim Swl ![] bc_c_wl (constant Sc .f32 0x3F800000#32)))))
    (sitofp .f32 (present x))

/-- The word numbers as a column, a negative one moved up by the number of words (none is). -/
def rowCol : IVec Sw1 32 :=
  select
    (cmpi .slt (broadcastInDim Sw1 ![0] bc_w_w1 (iotaInDim Sw 32 0)) (broadcastInDim Sw1 ![] bc_c_w1 (constantI Sc 32 0#32)))
    (addi (broadcastInDim Sw1 ![0] bc_w_w1 (iotaInDim Sw 32 0)) (broadcastInDim Sw1 ![] bc_c_w1 (constantI Sc 32 262144#32)))
    (broadcastInDim Sw1 ![0] bc_w_w1 (iotaInDim Sw 32 0))

/-- The character codes, a negative one moved up by 256. -/
def colOf (x : IVec Swl 32) : IVec Swl 32 :=
  select (cmpi .slt x (broadcastInDim Swl ![] bc_c_wl (constantI Sc 32 0#32)))
    (addi x (broadcastInDim Swl ![] bc_c_wl (constantI Sc 32 256#32))) x

/-- The scatter's index array: at `(r, k, 0)` the row, at `(r, k, 1)` the column of character `k` of word `r`. -/
def scatIdx (x : IVec Swl 32) : IVec Swl2 32 :=
  concatenate Swl2 2
    [⟨Swl1, broadcastInDim Swl1 ![0, 1] bc_wl_wl1 (broadcastInDim Swl ![0, 1] bc_w1_wl rowCol)⟩,
     ⟨Swl1, broadcastInDim Swl1 ![0, 1] bc_wl_wl1 (colOf x)⟩] cat_wl2

end Cert.Fofe

end
-- ==== Proof.KernelWeights.lean ====
/-
  The kernel program computes the weights on the host before it launches its one region: the region's second
  operand is the array `decay x f` of the two arguments — the same operations, in the same order, as the reference's.
-/
import proofs.«426897_j41996190220715_2_alg».proof.Proof.Gen.KernelIdeal.Frame
import proofs.«426897_j41996190220715_2_alg».proof.Proof.HostChain
import Idealize.ShloMosaic.Lib.StableHlo.Run

noncomputable section

namespace Cert.KernelIdeal.Weights

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- When the region is entered, the weight array holds `decay` of the character codes and the forgetting factor as
    launched. -/
theorem V_weights (c : Dev nD) :
    (V m c main_v16 : S262144x32.Idx → F .f32)
      = Cert.Fofe.decay (m ((c : Thread nD τ).loc main_arg0)) (m ((c : Thread nD τ).loc main_arg1)) := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  unfold Cert.Fofe.decay Cert.Fofe.later Cert.Fofe.present
  simp only [cast_eq]

end Cert.KernelIdeal.Weights

end
-- ==== Proof.BlockTerm.lean ====
/-
  One grid point's block of the kernel, read at an entry. The body holds 1024 words of the character codes and of the
  weights, and for each of the 32 character positions adds, into a [1024, 256] accumulator that starts at zero,
  the product of an indicator block — 1.0 where the character's code equals the lane number, else 0.0 — with the
  position's weight column. At entry `(p, q)` of the block each product is the weight when character `o` of row `p` has
  code `q`, and zero otherwise (1 · w = w and 0 · w = 0 on the extended reals, infinite weights included), so the 32
  additions spell the sum over the positions.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.Fofe

open Idealize.ShloMosaic ValueIdx

abbrev Bx : Shape := ⟨2, ![1024, 32]⟩
abbrev Bo : Shape := ⟨2, ![1024, 256]⟩
abbrev Bc : Shape := ⟨2, ![1024, 1]⟩
abbrev Br : Shape := ⟨2, ![1, 256]⟩

/-- A column broadcast along the rows of a block reads, at `(p, q)`, the column's entry `p`. -/
theorem bcast_col_apply {α : Type} (v : Bc.Idx → α) (h : Bc.Broadcasts Bo) (p : Fin 1024) (q : Fin 256) :
    broadcastTo Bo v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The lane numbers `0 … 255` as one row. -/
theorem iota_row_apply (h : Br.Iotas .tc 32 [1]) (q : Fin 256) :
    iota .tc Br 32 [1] h (ix2 (0 : Fin 1) q) = BitVec.ofNat 32 q.val := by
  unfold iota
  simp

/-- The indicator's two values, converted: the word 1 is the real 1, -/
theorem ind_one : ((BitVec.setWidth 32 (1#1)).toInt : ℝ) = 1 := by
  have h : (BitVec.setWidth 32 (1#1)).toInt = 1 := by decide
  rw [h]; exact Int.cast_one
/-- and the word 0 the real 0. -/
theorem ind_zero : ((BitVec.setWidth 32 (0#1)).toInt : ℝ) = 0 := by
  have h : (BitVec.setWidth 32 (0#1)).toInt = 0 := by decide
  rw [h]; exact Int.cast_zero

/-- An integer comparison of two blocks is entrywise. -/
theorem cmpi_apply {s : Shape} {w : Nat} (p : CmpIPredicate) (a b : IVec s w) (i : s.Idx) :
    cmpi p a b i = IntOp.cmpi p (a i) (b i) := rfl

/-- A column cut at offset `o` out of a 32-column block exists only for `o < 32`. -/
theorem slices_lt {o : Nat} (hs : Bx.Slices ![0, o] Bc) : o < 32 := by
  obtain ⟨h, ha⟩ := hs
  have h1 : (![0, o] : Fin 2 → Nat) 1 + Bc.size ((1 : Fin 2).cast h.symm) ≤ Bx.size 1 := ha 1
  have e : Bc.size ((1 : Fin 2).cast h.symm) = 1 := rfl
  have e' : (![0, o] : Fin 2 → Nat) 1 = o := rfl
  have e'' : Bx.size 1 = 32 := rfl
  omega

/-- One character's contribution to a block of the output: at `(p, q)` the weight of character `o` of row `p` when its code is
    the lane `q`, else zero. -/
theorem term_apply (o : Nat) (hs : Bx.Slices ![0, o] Bc) (hb : Bc.Broadcasts Bo) (hr : Br.Broadcasts Bo)
    (hi : Br.Iotas .tc 32 [1]) (h1 : 1 < 32) (x : IVec Bx 32) (w : FVec Ideal Bx .f32) (p : Fin 1024) (q : Fin 256) :
    mulf (sitofp .f32 (extui 32 (cmpi .eq (broadcastTo Bo (extractStridedSlice Bc ![0, o] x hs) hb)
        (broadcastTo Bo (iota .tc Br 32 [1] hi) hr)) h1))
      (broadcastTo Bo (extractStridedSlice Bc ![0, o] w hs) hb) (ix2 p q)
      = if x (ix2 p (⟨o, slices_lt hs⟩ : Fin 32)) = BitVec.ofNat 32 q.val then w (ix2 p (⟨o, slices_lt hs⟩ : Fin 32)) else 0 := by
  rw [mulf_apply, sitofp_apply, extui_apply, cmpi_apply, bcast_col_apply, bcast_col_apply,
    broadcastTo_1b_ab_apply, iota_row_apply,
    slice2_axis1_apply o x hs p (0 : Fin 1) (⟨o, slices_lt hs⟩ : Fin 32) (by simp),
    slice2_axis1_apply o w hs p (0 : Fin 1) (⟨o, slices_lt hs⟩ : Fin 32) (by simp)]
  by_cases hx : x (ix2 p (⟨o, slices_lt hs⟩ : Fin 32)) = BitVec.ofNat 32 q.val
  · rw [if_pos hx, StableHlo.Predicate.cmpi_eq_iff.2 hx]
    show (((BitVec.setWidth 32 (1#1)).toInt : ℝ) : EReal) * _ = _
    rw [ind_one]; exact one_mul _
  · rw [if_neg hx, eq_zero_of_ne_one (fun h => hx (StableHlo.Predicate.cmpi_eq_iff.1 h))]
    show (((BitVec.setWidth 32 (0#1)).toInt : ℝ) : EReal) * _ = _
    rw [ind_zero]; exact zero_mul _

/-- Entry `(p, q)` of a block: the weights of the characters of row `p` whose code is the lane `q`. -/
def bsum (x : IVec Bx 32) (w : Bx.Idx → EReal) (p : Fin 1024) (q : Fin 256) : EReal :=
  ∑ k : Fin 32, if x (ix2 p k) = BitVec.ofNat 32 q.val then w (ix2 p k) else 0

/-- A sum over the 32 positions, spelled out from the left starting at zero — the order in which the body adds. -/
theorem sum32_eq (f : Fin 32 → EReal) (a : EReal)
    (h : a = ∑ i ∈ Finset.range 32, if hi : i < 32 then f ⟨i, hi⟩ else 0) : a = ∑ k : Fin 32, f k := by
  rw [h, Finset.sum_fin_eq_sum_range]

end Cert.Fofe
end
-- ==== Proof.OneHot.lean ====
/-
  The function both programs compute, as one formula. For character codes `X : i32[262144, 32]` and weights
  `W : [262144, 32]` over the extended reals, entry `(r, v)` of the result is

      ∑ k < 32, [X r k = v] · W r k          (v = 0 … 255)

  — the weights of those characters of word `r` whose code is `v`, added up: a weighted one-hot scatter-sum.
-/
import proofs.«426897_j41996190220715_2_alg».proof.Proof.HostChain
import Idealize.ShloMosaic.PureOps.Ideal
import Idealize.ShloMosaic.Lib.ValueIdx

noncomputable section

namespace Cert.Fofe

open Idealize.ShloMosaic ValueIdx

/-- Entry `(r, v)`: the weights of the characters of word `r` whose code is the 32-bit word `v`. -/
def osum (X : IVec Swl 32) (W : Swl.Idx → EReal) (r : Fin 262144) (v : Fin 256) : EReal :=
  ∑ k : Fin 32, if X (ix2 r k) = BitVec.ofNat 32 v.val then W (ix2 r k) else 0

/-- The whole result array. -/
def onehot (X : IVec Swl 32) (W : Swl.Idx → EReal) : Swv.Idx → EReal := fun i => osum X W (i 0) (i 1)

theorem onehot_ix2 (X : IVec Swl 32) (W : Swl.Idx → EReal) (r : Fin 262144) (v : Fin 256) :
    onehot X W (ix2 r v) = osum X W r v := rfl

end Cert.Fofe

end
-- ==== Proof.KernelValue.lean ====
/-
  What the kernel program leaves in its result array: the one-hot scatter-sum of the weights.

  The grid has 256 points; point `t` stages rows `1024·t … 1024·t + 1023` of the character codes and of the weights
  (32 columns each) and of the result (256 columns). At entry `(p, q)` of its block the body's 32 additions are the
  sum, over the character positions `k`, of the weight of character `k` of row `p` where its code is `q`
  (BlockTerm.lean); read through the three windows that is the sum for row `1024·t + p` of the whole arrays, so the
  point writes back block `t` of the one-hot scatter-sum. The 256 blocks tile the result (row `i` lies in block
  `i / 1024`), hence the array ends holding the one-hot scatter-sum of the region-entry arrays: the character codes
  as launched, and the weights the host operations before the region computed, `decay x f`.
-/
import proofs.«426897_j41996190220715_2_alg».proof.Proof.Gen.KernelIdeal.Value
import proofs.«426897_j41996190220715_2_alg».proof.Proof.KernelWeights
import proofs.«426897_j41996190220715_2_alg».proof.Proof.BlockTerm
import proofs.«426897_j41996190220715_2_alg».proof.Proof.OneHot
import Idealize.ShloMosaic.Lib.Pipeline.Value
import Idealize.ShloMosaic.PureOps.Ideal.Laws

noncomputable section

namespace Cert.KernelIdeal.OneHotValue

open Cert.KernelIdeal Cert.KernelIdeal.Gen Idealize.ShloMosaic Idealize.ShloMosaic.TcCoe Idealize.SL.Sem ValueIdx
open Idealize.ShloMosaic.Pipeline (Dat)

variable (m : (ℓ : Loc nD τ sig) → Buf (Elt Ideal) ℓ) (ρ : Dev nD → PrngReg)

/-! ## The body's block at an entry -/

theorem hz : (![0, 0] : Fin 2 → Nat) = fun _ => 0 := funext fun a => by fin_cases a <;> rfl

theorem add_congr {a a' b b' : EReal} (h1 : a = a') (h2 : b = b') : a + b = a' + b' := by rw [h1, h2]

/-- The block the body stores, at `(p, q)`: zero plus the 32 characters' contributions in order, which is the sum over
    the positions. -/
theorem out_apply (x0 : Vec Ideal S1024x32 .i32) (x1 : Vec Ideal S1024x32 .f32) (p : Fin 1024) (q : Fin 256) :
    out0_2 x0 x1 (ix2 p q) = Cert.Fofe.bsum x0 x1 p q := by
  unfold out0_2
  rw [View.canon_unit_zero hz]
  simp only [View.ld_unit_zero (S := S1024x32) hz]
  unfold k0_pay1 k0_pay11 k0_pay9 k0_pay7 k0_pay5 k0_pay3 k0_pay4 k0_pay6 k0_pay8 k0_pay10 k0_pay12 k0_pay2
  simp only [addf_apply, shapeCast_self, broadcast_apply]
  refine Cert.Fofe.sum32_eq _ _ ?_
  simp only [Finset.sum_range_succ, Finset.sum_range_zero, Nat.reduceLT, ↓reduceDIte]
  repeat (refine add_congr ?_ (Cert.Fofe.term_apply _ _ _ _ _ _ _ _ _ _))
  exact Ideal.ofBits_zero_f32

/-! ## The windows' blocks as rows of the arrays -/

/-- Each window's block index at point `t` is `(t, 0)`: decided over the 256 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem pt_lt (t : Fin cfg0.N) : t.val < 256 := lt_of_lt_of_eq t.isLt N_0

/-- Row `p` of point `t`'s blocks is row `1024·t + p` of the arrays. -/
def row (t : Fin cfg0.N) (p : Fin 1024) : Fin 262144 := ⟨t.val * 1024 + p.val, by have := pt_lt t; have := p.isLt; omega⟩

/-- The input blocks and the arrays the region finds, at their literal types. -/
abbrev xblk (c : Dev nD) (t : Fin cfg0.N) : IVec S1024x32 32 := iblk m c 0 t
abbrev wblk (c : Dev nD) (t : Fin cfg0.N) : FVec Ideal S1024x32 .f32 := iblk m c 1 t
abbrev xarr (c : Dev nD) : IVec S262144x32 32 := V m c main_arg0
abbrev warr (c : Dev nD) : FVec Ideal S262144x32 .f32 := V m c main_v16

theorem xarr_eq (c : Dev nD) : xarr m c = m ((c : Thread nD τ).loc main_arg0) := V_main_arg0 m c
theorem warr_eq (c : Dev nD) :
    warr m c = Cert.Fofe.decay (m ((c : Thread nD τ).loc main_arg0)) (m ((c : Thread nD τ).loc main_arg1)) :=
  Cert.KernelIdeal.Weights.V_weights m c

theorem xblk_apply (c : Dev nD) (t : Fin cfg0.N) (p : Fin 1024) (k : Fin 32) :
    xblk m c t (ix2 p k) = xarr m c (ix2 (row t p) k) := by
  show V m c main_arg0 (((cfg0.win 0).blk t).view.emb (ix2 p k)) = V m c main_arg0 (ix2 (row t p) k)
  have e : ((cfg0.win 0).blk t).view.emb (ix2 p k) = ix2 (row t p) k := by
    obtain ⟨e0, e1, -, -, -, -⟩ := idx_facts t
    funext a; apply Fin.ext
    match a with
    | ⟨0, _⟩ => show win0_0.index t (0 : Fin 2) * 1024 + 1 * p.val = t.val * 1024 + p.val; omega
    | ⟨1, _⟩ => show win0_0.index t (1 : Fin 2) * 32 + 1 * k.val = k.val; omega
  rw [e]

theorem wblk_apply (c : Dev nD) (t : Fin cfg0.N) (p : Fin 1024) (k : Fin 32) :
    wblk m c t (ix2 p k) = warr m c (ix2 (row t p) k) := by
  show V m c main_v16 (((cfg0.win 1).blk t).view.emb (ix2 p k)) = V m c main_v16 (ix2 (row t p) k)
  have e : ((cfg0.win 1).blk t).view.emb (ix2 p k) = ix2 (row t p) k := by
    obtain ⟨-, -, e0, e1, -, -⟩ := idx_facts t
    funext a; apply Fin.ext
    match a with
    | ⟨0, _⟩ => show win0_1.index t (0 : Fin 2) * 1024 + 1 * p.val = t.val * 1024 + p.val; omega
    | ⟨1, _⟩ => show win0_1.index t (1 : Fin 2) * 32 + 1 * k.val = k.val; omega
  rw [e]

/-- Entry `(p, q)` of the output window's block at `t` is entry `(1024·t + p, q)` of the result array. -/
theorem oblk_emb (t : Fin cfg0.N) (p : Fin 1024) (q : Fin 256) :
    ((cfg0.win 2).blk t).view.emb (ix2 p q) = ix2 (row t p) q := by
  obtain ⟨-, -, -, -, e0, e1⟩ := idx_facts t
  funext a; apply Fin.ext
  match a with
  | ⟨0, _⟩ => show win0_2.index t (0 : Fin 2) * 1024 + 1 * p.val = t.val * 1024 + p.val; omega
  | ⟨1, _⟩ => show win0_2.index t (1 : Fin 2) * 256 + 1 * q.val = q.val; omega

/-! ## Each point writes its block of the one-hot scatter-sum -/

/-- The body's block from point `t`'s input blocks is block `t` of the one-hot scatter-sum of the arrays. -/
theorem block_eq (c : Dev nD) (t : Fin cfg0.N) (y : S1024x256.Idx) :
    out0_2 (F := Ideal) (xblk m c t) (wblk m c t) y
      = Cert.Fofe.onehot (xarr m c) (warr m c) (((cfg0.win 2).blk t).view.emb y) := by
  obtain ⟨p, q, rfl⟩ : ∃ (p : Fin 1024) (q : Fin 256), y = ix2 p q := ⟨y 0, y 1, eq_ix2 y⟩
  rw [oblk_emb, Cert.Fofe.onehot_ix2]
  refine (out_apply (xblk m c t) (wblk m c t) p q).trans ?_
  unfold Cert.Fofe.bsum Cert.Fofe.osum
  refine Finset.sum_congr rfl fun k _ => ?_
  rw [xblk_apply, wblk_apply]

theorem flushed_eq (c : Dev nD) (t : Fin cfg0.N) :
    (dats m 0 c).flushed 2 t
      = ((cfg0.win 2).blk t).view.read (Elt Ideal) (Cert.Fofe.onehot (xarr m c) (warr m c)) := by
  rw [Cert.KernelIdeal.Value.flushed2]
  funext y
  exact block_eq m c t y

/-! ## The blocks tile the result -/

theorem mem_blk (t : Fin cfg0.N) (i : S262144x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v17).slice (win0_2.rect t)).set ↔ _
  rw [View.set_slice_whole, Rect.mem_set_unit]
  exact Iff.rfl

theorem cover (i : S262144x256.Idx) :
    ∃ t : Fin cfg0.N, (cfg0.win 2).flush t = true ∧ i ∈ ((cfg0.win 2).blk t).view.set := by
  have hi0 : (i 0).val < 262144 := (i 0).isLt
  have hi1 : (i 1).val < 256 := (i 1).isLt
  let t : Fin cfg0.N := ⟨(i 0).val / 1024, lt_of_lt_of_eq (by omega) N_0.symm⟩
  obtain ⟨-, -, -, -, e0, e1⟩ := idx_facts t
  have ht : t.val = (i 0).val / 1024 := rfl
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 256 ≤ (i 1).val ∧ (i 1).val < win0_2.index t (1 : Fin 2) * 256 + 256
    omega

/-- The result array after the run is the one-hot scatter-sum of the region-entry arrays. -/
theorem final (c : Dev nD) : (dats m 0 c).arrAt 2 cfg0.N = Cert.Fofe.onehot (xarr m c) (warr m c) :=
  (dats m 0 c).arrAt_eq_of_cover 2 _ (fun t _ => flushed_eq m c t) cover

/-! ## The run -/

/-- Every weakly fair execution of the kernel program terminates with the result array at the one-hot scatter-sum of
    the character codes and of their weights `decay x f`, the arguments unchanged. -/
theorem run : θ_run defs (onTc (τ := τ) (main (F := Ideal))) ⟨m, fun _ => 0, ρ⟩ fun r => ∀ c : Dev nD,
      r.2.mem ((c : Thread nD τ).loc main_v17)
        = Cert.Fofe.onehot (m ((c : Thread nD τ).loc main_arg0))
            (Cert.Fofe.decay (F := Ideal) (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [xarr_eq, warr_eq])), (h c).2⟩)
    (Cert.KernelIdeal.Value.run_blocks m ρ)

end Cert.KernelIdeal.OneHotValue

end
-- ==== Proof.RefRun.lean ====
/-
  The run of the reference program: its @main, with the three outlined functions (the running count's two and the
  selection) unfolded at their calls, is one straight line of 47 tensor operations. From any memory with zero
  counters every weakly fair execution terminates, and the result buffer then holds the scatter-add of the weights
  `decay x f` at the index pairs `scatIdx x` into the zero array, both read at the arguments' launch contents,
  the arguments unchanged. The weights and the index pairs are the program's own composed terms: each operation's
  value at its result buffer, every other buffer as it was, so the equation closes by unfolding the two names.
-/
import proofs.«426897_j41996190220715_2_alg».proof.Proof.Gen.ReferenceIdeal
import proofs.«426897_j41996190220715_2_alg».proof.Proof.HostChain
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 47 operations in order, the calls unfolded: the five up to the reversed presence bits, the running
    count's three (its zero, the zero as the window's initial value, the windowed sum), the twelve up to the second
    one, the selection's two (the one broadcast, the select), the weight's last two, then the twenty-three that build
    the zero array and the index pairs and scatter the weights into it. -/
abbrev ops : List (HloOp τ sig (Elt F)) :=
  [ nullary main_c (constantI S_ 32 0#32),
    unary main_c main_v0 (broadcastInDim S262144x32 ![] bcast_S_S262144x32 : (⟨S_, .i32⟩ : BufTy).Contents (Elt F) → (⟨S262144x32, .i32⟩ : BufTy).Contents (Elt F)),
    binary main_arg0 main_v0 main_v1 (cmpi .ne : (⟨S262144x32, .i32⟩ : BufTy).Contents (Elt F) → (⟨S262144x32, .i32⟩ : BufTy).Contents (Elt F) → (⟨S262144x32, .i1⟩ : BufTy).Contents (Elt F)),
    unary main_v1 main_v2 ((extui 32 · natLt_1_32) : (⟨S262144x32, .i1⟩ : BufTy).Contents (Elt F) → (⟨S262144x32, .i32⟩ : BufTy).Contents (Elt F)),
    unary main_v2 main_v3 (Host.reverse [1] : (⟨S262144x32, .i32⟩ : BufTy).Contents (Elt F) → (⟨S262144x32, .i32⟩ : BufTy).Contents (Elt F)),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_v3 : TRef sig ⟨S262144x32, .i32⟩) (.of main_call0_call0_v0 : TRef sig ⟨S_, .i32⟩) (.of main_v4 : TRef sig ⟨S262144x32, .i32⟩) (fun x v => Host.reduceWindow IntOp.addi ![1, 32] ![1, 1] ![0, 31] ![0, 0] x v reduceWindows_S262144x32_S262144x32_w1s1p0_0_w32s1p31_0 h_S_),
    unary main_v4 main_v5 (Host.reverse [1] : (⟨S262144x32, .i32⟩ : BufTy).Contents (Elt F) → (⟨S262144x32, .i32⟩ : BufTy).Contents (Elt F)),
    binary main_v5 main_v2 main_v6 (subi : (⟨S262144x32, .i32⟩ : BufTy).Contents (Elt F) → (⟨S262144x32, .i32⟩ : BufTy).Contents (Elt F) → (⟨S262144x32, .i32⟩ : BufTy).Contents (Elt F)),
    unary main_v6 main_v7 (sitofp .f32 : (⟨S262144x32, .i32⟩ : BufTy).Contents (Elt F) → (⟨S262144x32, .f32⟩ : BufTy).Contents (Elt F)),
    nullary main_cst (constant S_ .f32 0x3F800000#32),
    unary main_cst main_v8 (broadcastInDim S262144x32 ![] bcast_S_S262144x32 : (⟨S_, .f32⟩ : BufTy).Contents (Elt F) → (⟨S262144x32, .f32⟩ : BufTy).Contents (Elt F)),
    binary main_v7 main_v8 main_v9 (maximumf : (⟨S262144x32, .f32⟩ : BufTy).Contents (Elt F) → (⟨S262144x32, .f32⟩ : BufTy).Contents (Elt F) → (⟨S262144x32, .f32⟩ : BufTy).Contents (Elt F)),
    unary main_arg1 main_v10 (broadcastInDim S262144x32 ![] bcast_S_S262144x32 : (⟨S_, .f32⟩ : BufTy).Contents (Elt F) → (⟨S262144x32, .f32⟩ : BufTy).Contents (Elt F)),
    binary main_v10 main_v9 main_v11 (Host.powf : (⟨S262144x32, .f32⟩ : BufTy).Contents (Elt F) → (⟨S262144x32, .f32⟩ : BufTy).Contents (Elt F) → (⟨S262144x32, .f32⟩ : BufTy).Contents (Elt F)),
    nullary main_c_0 (constantI S_ 32 0#32),
    unary main_c_0 main_v12 (broadcastInDim S262144x32 ![] bcast_S_S262144x32 : (⟨S_, .i32⟩ : BufTy).Contents (Elt F) → (⟨S262144x32, .i32⟩ : BufTy).Contents (Elt F)),
    binary main_v6 main_v12 main_v13 (cmpi .eq : (⟨S262144x32, .i32⟩ : BufTy).Contents (Elt F) → (⟨S262144x32, .i32⟩ : BufTy).Contents (Elt F) → (⟨S262144x32, .i1⟩ : BufTy).Contents (Elt F)),
    nullary main_cst_1 (constant S_ .f32 0x3F800000#32),
    TRef.unary (.of main_cst_1 : TRef sig ⟨S_, .f32⟩) (.of main_call1_v0 : TRef sig ⟨S262144x32, .f32⟩) (broadcastInDim S262144x32 ![] bcast_S_S262144x32),
    TRef.ternary (.of main_v13 : TRef sig ⟨S262144x32, .i1⟩) (.of main_call1_v0 : TRef sig ⟨S262144x32, .f32⟩) (.of main_v11 : TRef sig ⟨S262144x32, .f32⟩) (.of main_v14 : TRef sig ⟨S262144x32, .f32⟩) select,
    unary main_v2 main_v15 (sitofp .f32 : (⟨S262144x32, .i32⟩ : BufTy).Contents (Elt F) → (⟨S262144x32, .f32⟩ : BufTy).Contents (Elt F)),
    binary main_v14 main_v15 main_v16 (mulf : (⟨S262144x32, .f32⟩ : BufTy).Contents (Elt F) → (⟨S262144x32, .f32⟩ : BufTy).Contents (Elt F) → (⟨S262144x32, .f32⟩ : BufTy).Contents (Elt F)),
    nullary main_v17 (iotaInDim S262144 32 0),
    unary main_v17 main_v18 (broadcastInDim S262144x1 ![0] bcast_S262144_S262144x1_0 : (⟨S262144, .i32⟩ : BufTy).Contents (Elt F) → (⟨S262144x1, .i32⟩ : BufTy).Contents (Elt F)),
    nullary main_cst_2 (constant S_ .f32 0x00000000#32),
    unary main_cst_2 main_v19 (broadcastInDim S262144x256 ![] bcast_S_S262144x256 : (⟨S_, .f32⟩ : BufTy).Contents (Elt F) → (⟨S262144x256, .f32⟩ : BufTy).Contents (Elt F)),
    nullary main_c_3 (constantI S_ 32 0#32),
    unary main_c_3 main_v20 (broadcastInDim S262144x1 ![] bcast_S_S262144x1 : (⟨S_, .i32⟩ : BufTy).Contents (Elt F) → (⟨S262144x1, .i32⟩ : BufTy).Contents (Elt F)),
    binary main_v18 main_v20 main_v21 (cmpi .slt : (⟨S262144x1, .i32⟩ : BufTy).Contents (Elt F) → (⟨S262144x1, .i32⟩ : BufTy).Contents (Elt F) → (⟨S262144x1, .i1⟩ : BufTy).Contents (Elt F)),
    nullary main_c_4 (constantI S_ 32 262144#32),
    unary main_c_4 main_v22 (broadcastInDim S262144x1 ![] bcast_S_S262144x1 : (⟨S_, .i32⟩ : BufTy).Contents (Elt F) → (⟨S262144x1, .i32⟩ : BufTy).Contents (Elt F)),
    binary main_v18 main_v22 main_v23 (addi : (⟨S262144x1, .i32⟩ : BufTy).Contents (Elt F) → (⟨S262144x1, .i32⟩ : BufTy).Contents (Elt F) → (⟨S262144x1, .i32⟩ : BufTy).Contents (Elt F)),
    ternary main_v21 main_v23 main_v18 main_v24 (select : (⟨S262144x1, .i1⟩ : BufTy).Contents (Elt F) → (⟨S262144x1, .i32⟩ : BufTy).Contents (Elt F) → (⟨S262144x1, .i32⟩ : BufTy).Contents (Elt F) → (⟨S262144x1, .i32⟩ : BufTy).Contents (Elt F)),
    nullary main_c_5 (constantI S_ 32 0#32),
    unary main_c_5 main_v25 (broadcastInDim S262144x32 ![] bcast_S_S262144x32 : (⟨S_, .i32⟩ : BufTy).Contents (Elt F) → (⟨S262144x32, .i32⟩ : BufTy).Contents (Elt F)),
    binary main_arg0 main_v25 main_v26 (cmpi .slt : (⟨S262144x32, .i32⟩ : BufTy).Contents (Elt F) → (⟨S262144x32, .i32⟩ : BufTy).Contents (Elt F) → (⟨S262144x32, .i1⟩ : BufTy).Contents (Elt F)),
    nullary main_c_6 (constantI S_ 32 256#32),
    unary main_c_6 main_v27 (broadcastInDim S262144x32 ![] bcast_S_S262144x32 : (⟨S_, .i32⟩ : BufTy).Contents (Elt F) → (⟨S262144x32, .i32⟩ : BufTy).Contents (Elt F)),
    binary main_arg0 main_v27 main_v28 (addi : (⟨S262144x32, .i32⟩ : BufTy).Contents (Elt F) → (⟨S262144x32, .i32⟩ : BufTy).Contents (Elt F) → (⟨S262144x32, .i32⟩ : BufTy).Contents (Elt F)),
    ternary main_v26 main_v28 main_arg0 main_v29 (select : (⟨S262144x32, .i1⟩ : BufTy).Contents (Elt F) → (⟨S262144x32, .i32⟩ : BufTy).Contents (Elt F) → (⟨S262144x32, .i32⟩ : BufTy).Contents (Elt F) → (⟨S262144x32, .i32⟩ : BufTy).Contents (Elt F)),
    unary main_v24 main_v30 (broadcastInDim S262144x32 ![0, 1] bcast_S262144x1_S262144x32_0_1 : (⟨S262144x1, .i32⟩ : BufTy).Contents (Elt F) → (⟨S262144x32, .i32⟩ : BufTy).Contents (Elt F)),
    unary main_v30 main_v31 (broadcastInDim S262144x32x1 ![0, 1] bcast_S262144x32_S262144x32x1_0_1 : (⟨S262144x32, .i32⟩ : BufTy).Contents (Elt F) → (⟨S262144x32x1, .i32⟩ : BufTy).Contents (Elt F)),
    unary main_v29 main_v32 (broadcastInDim S262144x32x1 ![0, 1] bcast_S262144x32_S262144x32x1_0_1 : (⟨S262144x32, .i32⟩ : BufTy).Contents (Elt F) → (⟨S262144x32x1, .i32⟩ : BufTy).Contents (Elt F)),
    binary main_v31 main_v32 main_v33 ((fun a b => concatenate S262144x32x2 2 [⟨S262144x32x1, a⟩, ⟨S262144x32x1, b⟩] concatenates_S262144x32x1_S262144x32x1_S262144x32x2_d2) : (⟨S262144x32x1, .i32⟩ : BufTy).Contents (Elt F) → (⟨S262144x32x1, .i32⟩ : BufTy).Contents (Elt F) → (⟨S262144x32x2, .i32⟩ : BufTy).Contents (Elt F)),
    ternary main_v19 main_v33 main_v16 main_v34 ((fun x i u => Host.scatterAdd scatter_S262144x256_S262144x32x2_S262144x32_n_01_01_2 x i u) : (⟨S262144x256, .f32⟩ : BufTy).Contents (Elt F) → (⟨S262144x32x2, .i32⟩ : BufTy).Contents (Elt F) → (⟨S262144x32, .f32⟩ : BufTy).Contents (Elt F) → (⟨S262144x256, .f32⟩ : BufTy).Contents (Elt F)) ]

set_option maxRecDepth 2048 in
/-- @main is that straight line: the three functions' bodies unfolded at their calls, the sequencing reassociated. -/
theorem main_eq (c : Dev nD) : main (F := F) c = seq ops := by
  simp only [main, fn_cumsum.body, fn_cumsum_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., ternary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub ..⟩

/-- The result buffer after the line, from any contents `V`: each operation's value at its own result buffer,
    every other buffer as the operation found it. The two operands of the concatenate sit in a list whose shape
    evidence depends on it, so each is named, read back by itself and put back; the typed references' transports
    are the identity at these literal references; what is left is the two host-side arrays' own definitions. -/
theorem out_eq (V : Valuation τ sig (Elt F)) :
    after ops V (main_v34 : DevRef τ sig)
      = Host.scatterAdd scatter_S262144x256_S262144x32x2_S262144x32_n_01_01_2
          (broadcastInDim S262144x256 ![] bcast_S_S262144x256 (constant S_ .f32 0x00000000#32))
          (Cert.Fofe.scatIdx (V (main_arg0 : DevRef τ sig)))
          (Cert.Fofe.decay (V (main_arg0 : DevRef τ sig)) (V (main_arg1 : DevRef τ sig))) := by
  after_results_simp
  generalize h31 : HloOp.result _ _ (Proc.devRef .tc main_v31) = a31
  generalize h32 : HloOp.result _ _ (Proc.devRef .tc main_v32) = a32
  simp (disch := decide) only [after_cons, after_nil,
      nullary_result', unary_result', binary_result', ternary_result',
      nullary_result_ne', unary_result_ne', binary_result_ne', ternary_result_ne'] at h31 h32
  subst h31 h32
  simp only [TRef.toBuf, TRef.ofBuf, cast_eq]
  rfl

/-- No operation writes the character codes. -/
theorem arg0_eq (V : Valuation τ sig (Elt F)) :
    after ops V (main_arg0 : DevRef τ sig) = V (main_arg0 : DevRef τ sig) := by
  after_results_simp

/-- No operation writes the forgetting factor. -/
theorem arg1_eq (V : Valuation τ sig (Elt F)) :
    after ops V (main_arg1 : DevRef τ sig) = V (main_arg1 : DevRef τ sig) := by
  after_results_simp

/-- On every device, for any float values, from any memory with zero counters: every weakly fair execution of
    @main terminates with the result buffer at the scatter-add of the weights at the index pairs into the zero
    array, all read at the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = Host.scatterAdd scatter_S262144x256_S262144x32x2_S262144x32_n_01_01_2
            (broadcastInDim S262144x256 ![] bcast_S_S262144x256 (constant S_ .f32 0x00000000#32))
            (Cert.Fofe.scatIdx (m ((c.tc : Thread nD τ).loc main_arg0)))
            (Cert.Fofe.decay (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v34).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.ScatterSum.lean ====
/-
  The reference's accumulating scatter, read at an entry. The scatter's dimension numbers say: no window axes, both
  operand axes inserted, the index vector on the last axis of the index array naming (row, column). So update `(r, k)`
  lands at the operand entry whose row is component 0 and whose column is component 1 of its index pair, read as
  signed words, when both are inside the operand, and is dropped otherwise. Where component 0 is `r` itself and
  component 1 is the character code, a vocabulary id, every update lands, at `(r, code)`; the updates landing on
  `(r, v)` are the characters of word `r` with code `v`, and the exact sum over them is the one-hot scatter-sum.
-/
import proofs.«426897_j41996190220715_2_alg».proof.Proof.OneHot

noncomputable section

namespace Cert.Fofe

open Idealize.ShloMosaic ValueIdx

/-- The dimension numbers of the reference's scatter are well formed. -/
theorem sd_wf : ScatterDims.WF Swv Swl2 Swl [] [0, 1] [0, 1] 2 := by decide

/-- The reference's scatter: index pairs `(row, column)`, one scalar update each. -/
abbrev sd : ScatterDims Swv Swl2 Swl :=
  { updateWindowDims := [], insertedWindowDims := [0, 1], scatterDimsToOperandDims := [0, 1], indexVectorDim := 2, wf := sd_wf }

/-- No window: an update is one scalar. -/
theorem window_eq (j : Swl.Idx) (a : Fin 2) : sd.window j a = 0 := by
  unfold ScatterDims.window
  rw [dif_neg (by revert a; decide)]

/-- Component `c` of update `j`'s index pair sits at `(j 0, j 1, c)` of the index array. -/
theorem siIdx_eq (j : Swl.Idx) (c : Fin 2) : sd.siIdx j ⟨c.val, c.isLt⟩ = ix3 (j 0) (j 1) c := by
  funext b
  match b with
  | ⟨0, _⟩ => rfl
  | ⟨1, _⟩ => rfl
  | ⟨2, _⟩ => rfl

/-- The landing row is component 0, read signed. -/
theorem start_zero {w : Nat} (j : Swl.Idx) (idx : IVec Swl2 w) :
    sd.start j idx 0 = (idx (ix3 (j 0) (j 1) (0 : Fin 2))).toInt := by
  unfold ScatterDims.start
  rw [dif_pos (by decide)]
  exact congrArg (fun i => (idx i).toInt) (siIdx_eq j 0)

/-- The landing column is component 1, read signed. -/
theorem start_one {w : Nat} (j : Swl.Idx) (idx : IVec Swl2 w) :
    sd.start j idx 1 = (idx (ix3 (j 0) (j 1) (1 : Fin 2))).toInt := by
  unfold ScatterDims.start
  rw [dif_pos (by decide)]
  exact congrArg (fun i => (idx i).toInt) (siIdx_eq j 1)

/-- Where the index pair of update `j` is `(r, v)` with `r` a row and `v` a column of the operand, the update lands
    at `(r, v)`. -/
theorem resultIdx_eq {w : Nat} (j : Swl.Idx) (idx : IVec Swl2 w) (r : Fin 262144) (v : Fin 256)
    (h0 : (idx (ix3 (j 0) (j 1) (0 : Fin 2))).toInt = (r.val : Int))
    (h1 : (idx (ix3 (j 0) (j 1) (1 : Fin 2))).toInt = (v.val : Int)) :
    sd.resultIdx? j idx = some (ix2 r v) := by
  unfold ScatterDims.resultIdx?
  have hs : ∀ a, 0 ≤ sd.start j idx a + sd.window j a ∧ sd.start j idx a + sd.window j a < Swv.size a := by
    intro a
    rw [window_eq]
    match a with
    | ⟨0, _⟩ =>
      have := start_zero j idx
      have hr := r.isLt
      show 0 ≤ sd.start j idx 0 + ((0 : Nat) : Int) ∧ sd.start j idx 0 + ((0 : Nat) : Int) < 262144
      omega
    | ⟨1, _⟩ =>
      have := start_one j idx
      have hv := v.isLt
      show 0 ≤ sd.start j idx 1 + ((0 : Nat) : Int) ∧ sd.start j idx 1 + ((0 : Nat) : Int) < 256
      omega
  rw [dif_pos hs]
  congr 1
  funext a
  match a with
  | ⟨0, _⟩ =>
    apply Fin.ext
    show (sd.start j idx 0 + (sd.window j 0 : Int)).toNat = r.val
    rw [window_eq, start_zero, h0]; simp
  | ⟨1, _⟩ =>
    apply Fin.ext
    show (sd.start j idx 1 + (sd.window j 1 : Int)).toNat = v.val
    rw [window_eq, start_one, h1]; simp

/-- A lane number below 256 read back as a signed 32-bit word is itself. -/
theorem toInt_ofNat_small (n : Nat) (h : n < 256) : (BitVec.ofNat 32 n).toInt = (n : Int) := by
  have hn : (BitVec.ofNat 32 n).toNat = n := by rw [BitVec.toNat_ofNat]; omega
  rw [BitVec.toInt_eq_toNat_of_lt (by rw [hn]; omega), hn]

/-- A word is the lane number `n` exactly when its signed value is `n`. -/
theorem eq_ofNat_iff (b : BitVec 32) (n : Nat) (h : n < 256) : b = BitVec.ofNat 32 n ↔ b.toInt = (n : Int) := by
  rw [← toInt_ofNat_small n h, BitVec.toInt_inj]

/-- THE SCATTER AT AN ENTRY: where the index array pairs each character with (its word, its code) and every code is a
    vocabulary id, entry `(r, v)` of the accumulated scatter is the operand's entry plus the one-hot scatter-sum. -/
theorem scatterAdd_apply (x : IVec Swl 32) (idx : IVec Swl2 32) (W : Swl.Idx → EReal) (z : Swv.Idx → EReal)
    (hrow : ∀ (r : Fin 262144) (k : Fin 32), (idx (ix3 r k (0 : Fin 2))).toInt = (r.val : Int))
    (hcol : ∀ (r : Fin 262144) (k : Fin 32), (idx (ix3 r k (1 : Fin 2))).toInt = (x (ix2 r k)).toInt)
    (hx : ∀ j : Swl.Idx, 0 ≤ (x j).toInt ∧ (x j).toInt < 256) (r : Fin 262144) (v : Fin 256) :
    Ideal.hostScatterAdd sd z idx W (ix2 r v) = z (ix2 r v) + osum x W r v := by
  unfold Ideal.hostScatterAdd osum
  refine congrArg (z (ix2 r v) + ·) ?_
  rw [Finset.sum_filter, sum_idx2]
  rw [Finset.sum_eq_single r]
  · refine Finset.sum_congr rfl fun k _ => ?_
    have hxk := hx (ix2 r k)
    have hland : sd.resultIdx? (ix2 r k) idx = some (ix2 r ⟨(x (ix2 r k)).toInt.toNat, by omega⟩) :=
      resultIdx_eq (ix2 r k) idx r ⟨(x (ix2 r k)).toInt.toNat, by omega⟩ (hrow r k) (by rw [hcol r k]; simp; omega)
    rw [hland]
    by_cases hv : (x (ix2 r k)).toInt = (v.val : Int)
    · rw [if_pos ((eq_ofNat_iff _ _ v.isLt).2 hv), if_pos]
      refine congrArg some (congrArg (ix2 r) (Fin.ext ?_))
      show (x (ix2 r k)).toInt.toNat = v.val
      omega
    · rw [if_neg (fun h => hv ((eq_ofNat_iff _ _ v.isLt).1 h)), if_neg]
      intro h
      apply hv
      have h1 := congrArg (fun i : Swv.Idx => (i 1).val) (Option.some.inj h)
      change (x (ix2 r k)).toInt.toNat = v.val at h1
      omega
  · intro r' _ hne
    refine Finset.sum_eq_zero fun k _ => ?_
    have hxk := hx (ix2 r' k)
    have hland : sd.resultIdx? (ix2 r' k) idx = some (ix2 r' ⟨(x (ix2 r' k)).toInt.toNat, by omega⟩) :=
      resultIdx_eq (ix2 r' k) idx r' ⟨(x (ix2 r' k)).toInt.toNat, by omega⟩ (hrow r' k) (by rw [hcol r' k]; simp; omega)
    rw [hland, if_neg]
    intro h
    apply hne
    have h0 := congrArg (fun i : Swv.Idx => (i 0).val) (Option.some.inj h)
    exact Fin.ext h0
  · intro h; exact absurd (Finset.mem_univ r) h

end Cert.Fofe
end
-- ==== Proof.ScatIdxRead.lean ====
/-
  The reference's scatter index array read at an index.

  `scatIdx x` holds, for character `k` of word `r`, the pair (row, column) the scatter adds that character's weight
  at: component 0 is the word's number `r` (an iota along the word axis, with the python rule "a negative index counts
  from the end" applied to it — no word number is negative, so the rule changes nothing), component 1 is the character
  code `x[r, k]` under the same rule with 256 columns — a code that is not negative is left as it is.

  Each statement is read off the defining term one operation at a time: the concatenation along the last axis picks its
  first or second piece, the two broadcasts into a trailing unit axis read their operand at the first two coordinates,
  and the select is decided by its compare.
-/
import proofs.«426897_j41996190220715_2_alg».proof.Proof.HostChain
import Idealize.ShloMosaic.Lib.ValueIdx
import Idealize.ShloMosaic.Lib.IdealHost
import Idealize.ShloMosaic.Lib.Pipeline.Value
import Idealize.ShloMosaic.Lib.StableHlo.Predicate

noncomputable section

namespace Cert.Fofe

open Idealize.ShloMosaic ValueIdx

/-- The word numbers' column at word `r` is `r` as a 32-bit word: the iota is not negative, so the select keeps it. -/
private theorem rowCol_apply (r : Fin 262144) (u : Fin 1) : rowCol (ix2 r u) = BitVec.ofNat 32 r.val := by
  have hio : broadcastInDim Sw1 ![0] bc_w_w1 (iotaInDim Sw 32 0) (ix2 r u) = BitVec.ofNat 32 r.val :=
    (broadcastInDim_apply _ bc_w_w1 _ (ix2 r u) (ix1 r) (fun a => match a with | ⟨0, _⟩ => rfl)).trans rfl
  have hlt : r.val < 2 ^ 31 := by have := r.isLt; omega
  have hc : IntOp.cmpi .slt (BitVec.ofNat 32 r.val) 0#32 = 0#1 := by
    apply eq_zero_of_ne_one
    intro h1
    have := (StableHlo.Predicate.slt_iff_toNat (a := BitVec.ofNat 32 r.val) (b := 0#32)
      (by simp [BitVec.toNat_ofNat]; omega) (by simp)).1 h1
    simp at this
  unfold rowCol
  rw [select_apply]
  show Scalar.select (IntOp.cmpi .slt (broadcastInDim Sw1 ![0] bc_w_w1 (iotaInDim Sw 32 0) (ix2 r u)) 0#32) _ _ = _
  rw [hio, hc, select_zero]

/-- The column array at character `(r, k)` is the character code when the code is not negative. -/
private theorem colOf_apply (x : IVec Swl 32) (i : Swl.Idx) (h : 0 ≤ (x i).toInt) : colOf x i = x i := by
  have hc : IntOp.cmpi .slt (x i) 0#32 = 0#1 := by
    apply eq_zero_of_ne_one
    intro h1
    unfold IntOp.cmpi at h1
    have h2 := (StableHlo.Predicate.ofBool_eq_one_iff _).1 h1
    simp only [BitVec.slt, decide_eq_true_eq] at h2
    have : (0#32).toInt = 0 := by decide
    omega
  unfold colOf
  rw [select_apply]
  show Scalar.select (IntOp.cmpi .slt (x i) 0#32) _ _ = _
  rw [hc, select_zero]

/-- Component 0 of character (r, k)'s index pair is the word's number. -/
theorem scatIdx_row (x : IVec Swl 32) (r : Fin 262144) (k : Fin 32) :
    scatIdx x (ix3 r k (0 : Fin 2)) = BitVec.ofNat 32 r.val := by
  unfold scatIdx
  rw [concatenate_pair_apply_left (2 : Fin Swl2.rank) _ _ cat_wl2 (ix3 r k (0 : Fin 2)) rfl (ix3 r k (0 : Fin 1))
    (fun b => match b with | ⟨0, _⟩ => rfl | ⟨1, _⟩ => rfl | ⟨2, _⟩ => rfl)]
  rw [broadcastInDim_apply _ bc_wl_wl1 _ (ix3 r k (0 : Fin 1)) (ix2 r k) (fun a => match a with | ⟨0, _⟩ => rfl | ⟨1, _⟩ => rfl)]
  rw [broadcastInDim_apply _ bc_w1_wl _ (ix2 r k) (ix2 r (0 : Fin 1)) (fun a => match a with | ⟨0, _⟩ => rfl | ⟨1, _⟩ => rfl)]
  exact rowCol_apply r 0

/-- Component 1 is the character code itself when the code is not negative. -/
theorem scatIdx_col (x : IVec Swl 32) (r : Fin 262144) (k : Fin 32) (h : 0 ≤ (x (ix2 r k)).toInt) :
    scatIdx x (ix3 r k (1 : Fin 2)) = x (ix2 r k) := by
  unfold scatIdx
  rw [concatenate_pair_apply_right (2 : Fin Swl2.rank) _ _ cat_wl2 (ix3 r k (1 : Fin 2)) rfl rfl (ix3 r k (0 : Fin 1))
    (fun b => match b with | ⟨0, _⟩ => fun _ => rfl | ⟨1, _⟩ => fun _ => rfl | ⟨2, _⟩ => fun hb => absurd rfl hb) rfl]
  rw [broadcastInDim_apply _ bc_wl_wl1 _ (ix3 r k (0 : Fin 1)) (ix2 r k) (fun a => match a with | ⟨0, _⟩ => rfl | ⟨1, _⟩ => rfl)]
  exact colOf_apply x (ix2 r k) h

/-- The row component read signed is the word's number: 262144 words fit far below 2³¹. -/
theorem scatIdx_row_toInt (x : IVec Swl 32) (r : Fin 262144) (k : Fin 32) :
    (scatIdx x (ix3 r k (0 : Fin 2))).toInt = (r.val : Int) := by
  rw [scatIdx_row]
  exact StableHlo.Predicate.toInt_ofNat_small r.val (by have := r.isLt; omega)

/-- The column component read signed is the character code read signed. -/
theorem scatIdx_col_toInt (x : IVec Swl 32) (r : Fin 262144) (k : Fin 32) (h : 0 ≤ (x (ix2 r k)).toInt) :
    (scatIdx x (ix3 r k (1 : Fin 2))).toInt = (x (ix2 r k)).toInt := by
  rw [scatIdx_col x r k h]

end Cert.Fofe

end
-- ==== Proof.RefValue.lean ====
/-
  What the reference program's result holds where every character code is a vocabulary id: the one-hot scatter-sum.

  The reference scatters the weights into a zero array at the index pairs `scatIdx x`. Component 0 of character
  `(r, k)`'s pair is `r`; component 1 is the code `x r k`, unchanged by the "count from the end" rule because it is
  not negative; and the code is below 256, so every update lands, at `(r, x r k)`. Entry `(r, v)` of the result is
  therefore `0 +` the sum of the weights of the characters of word `r` whose code is `v`.
-/
import proofs.«426897_j41996190220715_2_alg».proof.Proof.Gen.ReferenceIdeal
import proofs.«426897_j41996190220715_2_alg».proof.Proof.ScatterSum
import proofs.«426897_j41996190220715_2_alg».proof.Proof.ScatIdxRead
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic ValueIdx

/-- The zero array the reference scatters into, at an entry. -/
theorem zeros_apply (i : S262144x256.Idx) :
    broadcastInDim S262144x256 ![] bcast_S_S262144x256 (constant (F := Ideal) S_ .f32 0x00000000#32) i = 0 := by
  rw [broadcastInDim_apply _ bcast_S_S262144x256 _ i ix0 (fun a => a.elim0), constant_apply]
  exact Ideal.ofBits_zero_f32

/-- THE REFERENCE'S RESULT: the scatter-add of weights `W` at `scatIdx x` into zeros is the one-hot scatter-sum of `W`
    by the codes `x`, where every code is in `0 … 255`. -/
theorem result_eq (x : IVec S262144x32 32) (W : FVec Ideal S262144x32 .f32)
    (hx : ∀ j : S262144x32.Idx, 0 ≤ (x j).toInt ∧ (x j).toInt < 256) :
    Host.scatterAdd scatter_S262144x256_S262144x32x2_S262144x32_n_01_01_2
        (broadcastInDim S262144x256 ![] bcast_S_S262144x256 (constant S_ .f32 0x00000000#32))
        (Cert.Fofe.scatIdx x) W
      = Cert.Fofe.onehot x W := by
  funext i
  obtain ⟨r, v, rfl⟩ : ∃ (r : Fin 262144) (v : Fin 256), i = ix2 r v := ⟨i 0, i 1, eq_ix2 i⟩
  refine (Cert.Fofe.scatterAdd_apply x (Cert.Fofe.scatIdx x) W
      (broadcastInDim S262144x256 ![] bcast_S_S262144x256 (constant (F := Ideal) S_ .f32 0x00000000#32))
      (fun r k => Cert.Fofe.scatIdx_row_toInt x r k)
      (fun r k => Cert.Fofe.scatIdx_col_toInt x r k (hx _).1) hx r v).trans ?_
  rw [zeros_apply, Cert.Fofe.onehot_ix2, zero_add]

end Cert.ReferenceIdeal.RefValue

end
-- ==== Proof.PreRange.lean ====
/-
  The printed precondition, read back at one character. Its second conjunct is the conjunction, over every
  position of the [262144, 32] array of character codes, of the two signed word comparisons
  `0 ≤ x` and `x < 256`. Where the predicate is all ones, every position's pair of comparison words is 1, and a
  signed comparison word being 1 is the order of the two words read as signed integers; the literals 0 and 256
  read as themselves. So every character code, read signed, lies in [0, 256): it is a vocabulary id.
  The first conjunct (the forgetting factor is finite) is not used here.
-/
import proofs.«426897_j41996190220715_2_alg».proof.Proof.Gen.Pre_finite_inputs
import Idealize.ShloMosaic.Lib.ReduceAll
import Idealize.ShloMosaic.Lib.ValueIdx

namespace Cert.Proof.PreRange

open Idealize.ShloMosaic

/-- The scalar shape has one index. -/
instance subsingleton_scalar_idx : Subsingleton Cert.Pre_finite_inputs.S_.Idx :=
  ⟨fun a b => funext fun d => d.elim0⟩

/-- The literal 0 read signed. -/
theorem toInt_zero : (0#32 : BitVec 32).toInt = 0 := by decide

/-- The literal 256 read signed. -/
theorem toInt_256 : (256#32 : BitVec 32).toInt = 256 := by decide

/-- Where the printed precondition is all ones, every character code read signed lies in [0, 256). -/
theorem code_range {F : FTy → Type} [FloatOps F] [Cert.Pre_finite_inputs.Facts]
    (x : IVec Cert.Pre_finite_inputs.S262144x32 32) (f : FVec F Cert.Pre_finite_inputs.S_ .f32)
    (h : Cert.Pre_finite_inputs.fn (F := F) x f = fun _ => 1#1) (j : Cert.Pre_finite_inputs.S262144x32.Idx) :
    0 ≤ (x j).toInt ∧ (x j).toInt < 256 := by
  -- the predicate's one word
  have e := congrFun h ValueIdx.ix0
  dsimp only [Cert.Pre_finite_inputs.fn] at e
  -- the outer conjunction: keep the conjunct over the codes
  have e8 := (IntOp.andi_eq_one.1 e).2
  -- the conjunction over all positions, at position j
  have ej := Host.reduce_andi_all _ _ _ _ _ e8 j
  -- the two comparisons at position j
  obtain ⟨hge, hlt⟩ := IntOp.andi_eq_one.1 ej
  have hge' := IntOp.cmpi_sge.1 hge
  have hlt' := IntOp.cmpi_slt.1 hlt
  simp only [broadcastInDim, constantI] at hge' hlt'
  rw [toInt_zero] at hge'
  rw [toInt_256] at hlt'
  exact ⟨hge', hlt'⟩

end Cert.Proof.PreRange
-- ==== Proof.lean ====
/-
  The certificate of the weighted one-hot scatter-sum (a fixed-size ordinally-forgetting encoding of character codes).

  Both programs first compute, with the same host operations, a weight for every character of every word:
  `w = (if later = 0 then 1 else f ^ max later 1) · present`, where `present` is the bit "the code is not 0" and
  `later` counts the present characters to the right (HostChain.lean, `decay`). The kernel program then builds the
  result block by block: per block of 1024 words it adds, for each of the 32 character positions, the indicator
  "the code equals the lane number" times the position's weight column (KernelValue.lean). The reference scatters the
  weights into a zero array at the pairs (word, code), a negative code counted from the end (RefValue.lean).

  Under the precondition — the forgetting factor finite, every code a vocabulary id `0 ≤ x < 256` — both results are the
  one array `onehot x (decay x f)`: entry `(r, v)` is the sum of the weights of the characters of word `r` with code `v`
  (OneHot.lean). Sums on the extended reals are commutative and associative, and `1 · w = w`, `0 · w = 0` hold for
  every extended real `w`, so nothing about the size of the weights is used: the finiteness of `f` is never opened.
  The range of the codes is what makes the two agree: it makes every scatter update land, and land on the column the
  kernel's comparison selects (a code in `-256 … -1` would be counted from the end by the reference and matched by no
  lane in the kernel).

  The three frames: the two kernel programs' are the generated frame certificates; the reference's is its run
  (RefRun.lean) with the result dropped. The idealization rewrote nothing, so `preserves` asks nothing.
-/
import proofs.«426897_j41996190220715_2_alg».proof.Defs
import proofs.«426897_j41996190220715_2_alg».proof.Proof.Gen.Kernel
import proofs.«426897_j41996190220715_2_alg».proof.Proof.Gen.Kernel.Skeleton
import proofs.«426897_j41996190220715_2_alg».proof.Proof.Gen.Kernel.Launch
import proofs.«426897_j41996190220715_2_alg».proof.Proof.Gen.Kernel.Points
import proofs.«426897_j41996190220715_2_alg».proof.Proof.Gen.Kernel.Frame
import proofs.«426897_j41996190220715_2_alg».proof.Proof.Gen.KernelIdeal
import proofs.«426897_j41996190220715_2_alg».proof.Proof.Gen.KernelIdeal.Skeleton
import proofs.«426897_j41996190220715_2_alg».proof.Proof.Gen.KernelIdeal.Launch
import proofs.«426897_j41996190220715_2_alg».proof.Proof.Gen.KernelIdeal.Points
import proofs.«426897_j41996190220715_2_alg».proof.Proof.Gen.KernelIdeal.Frame
import proofs.«426897_j41996190220715_2_alg».proof.Proof.Gen.KernelIdeal.Value
import proofs.«426897_j41996190220715_2_alg».proof.Proof.Gen.ReferenceIdeal
import proofs.«426897_j41996190220715_2_alg».proof.Proof.Gen.Pre_finite_inputs
import proofs.«426897_j41996190220715_2_alg».proof.Proof.KernelValue
import proofs.«426897_j41996190220715_2_alg».proof.Proof.RefRun
import proofs.«426897_j41996190220715_2_alg».proof.Proof.RefValue
import proofs.«426897_j41996190220715_2_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the one-hot scatter-sum of the weights `decay x f`
    by the codes `x`: the kernel's blocks tile it, and the reference's scatter is it wherever the codes are vocabulary
    ids, which the precondition says of every code. -/
theorem algebraic : Cert.algebraic_KernelIdeal_ReferenceIdeal := by
  intro m ρ m' ρ' hpre hagree
  refine ⟨_, Cert.KernelIdeal.OneHotValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.result_eq _ _ (fun j => Cert.Proof.PreRange.code_range _ _ (hpre c) j)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
